-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1600000 : Shape := ⟨1, ![1600000]⟩
abbrev S100000x64 : Shape := ⟨2, ![100000, 64]⟩
abbrev S64x64 : Shape := ⟨2, ![64, 64]⟩
abbrev S64 : Shape := ⟨1, ![64]⟩
abbrev S_ : Shape := ⟨0, ![]⟩

class Facts : Prop where
  bcast_S_S1600000 : S_.BroadcastsInDim S1600000 (![] : Fin 0 → Fin S1600000.rank)
  reducesTo_S1600000_S_d0 : S1600000.ReducesTo [0] S_
  h_S_ : 0 < S_.numel
  bcast_S_S100000x64 : S_.BroadcastsInDim S100000x64 (![] : Fin 0 → Fin S100000x64.rank)
  reducesTo_S100000x64_S_d0_1 : S100000x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : IVec S1600000 32) (main_arg1 : IVec S1600000 32) (main_arg2 : FVec F S1600000 .f32) (main_arg3 : FVec F S100000x64 .f32) (main_arg4 : FVec F S64x64 .f32) (main_arg5 : FVec F S64 .f32) : IVec S_ 1 :=
  let main_v0 : FVec F S1600000 .f32 := Host.absf main_arg2
  let main_cst : FVec F S_ .f32 := constant S_ .f32 0x7F800000#32
  let main_v1 : FVec F S1600000 .f32 := broadcastInDim S1600000 ![] bcast_S_S1600000 main_cst
  let main_v2 : IVec S1600000 1 := cmpf .olt main_v0 main_v1
  let main_c : IVec S_ 1 := constantI S_ 1 1#1
  let main_v3 : IVec S_ 1 := (fun x v => Host.reduce IntOp.andi x v reducesTo_S1600000_S_d0 h_S_) main_v2 main_c
  let main_v4 : FVec F S100000x64 .f32 := Host.absf main_arg3
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S1600000 : Shape := ⟨1, ![1600000]⟩
abbrev S100000x64 : Shape := ⟨2, ![100000, 64]⟩
abbrev S64x64 : Shape := ⟨2, ![64, 64]⟩
abbrev S64 : Shape := ⟨1, ![64]⟩
abbrev S10000x64 : Shape := ⟨2, ![10000, 64]⟩
abbrev S1x64 : Shape := ⟨2, ![1, 64]⟩
abbrev S1600000x1 : Shape := ⟨2, ![1600000, 1]⟩
abbrev S_ : Shape := ⟨0, ![]⟩
abbrev S1600000x64 : Shape := ⟨2, ![1600000, 64]⟩

abbrev nBuf : Space → Nat
  | .hbm => 24
  | .vmem => 10
  | .smem => 0
  | _ => 0

abbrev bufTy : (tb : Table) → Fin (tcTables nBuf tb) → BufTy
  | .hbm, ⟨0, _⟩ => ⟨S1600000, .i32⟩
  | .hbm, ⟨1, _⟩ => ⟨S1600000, .i32⟩
  | .hbm, ⟨2, _⟩ => ⟨S1600000, .f32⟩
  | .hbm, ⟨3, _⟩ => ⟨S100000x64, .f32⟩
  | .hbm, ⟨4, _⟩ => ⟨S64x64, .f32⟩
  | .hbm, ⟨5, _⟩ => ⟨S64, .f32⟩
  | .hbm, ⟨6, _⟩ => ⟨S100000x64, .f32⟩
  | .hbm, ⟨7, _⟩ => ⟨S1600000x1, .f32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1600000x64, .f32⟩
  | .hbm, ⟨17, _⟩ => ⟨S1600000x64, .f32⟩
  | .hbm, ⟨18, _⟩ => ⟨S1600000x64, .f32⟩
  | .hbm, ⟨19, _⟩ => ⟨S_, .f32⟩
  | .hbm, ⟨20, _⟩ => ⟨S100000x64, .f32⟩
  | .hbm, ⟨21, _⟩ => ⟨S1600000x1, .i32⟩
  | .hbm, ⟨22, _⟩ => ⟨S100000x64, .f32⟩
  | .hbm, ⟨23, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | _, _ => ⟨S1600000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

class Facts₀ : Prop where
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S64_S64_0 : ∀ a, (![0] : Fin 1 → Nat) a + S64.size a ≤ S64.size a
  h_S64 : 0 < S64.numel
  shapeCasts_S64_S1x64 : S64.ShapeCasts S1x64
  broadcasts_S1x64_S10000x64 : S1x64.Broadcasts S10000x64
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S10000x64_S10000x64 : S10000x64.ShapeCasts S10000x64
  dot_S10000x64_S64x64_S10000x64_1_0_0_1_n_n_wf : DotDims.WF S10000x64 S64x64 S10000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S100000x64.size a
  hwx0_3 : ∀ i : grid0.Coords, EltTy.bits .f32 = 32 ∨ (Rect.block (s := S100000x64) S10000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)

variable [Facts₀]

def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg3) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v13) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S10000x64.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S1600000 : Shape := ⟨1, ![1600000]⟩
abbrev S100000x64 : Shape := ⟨2, ![100000, 64]⟩
abbrev S64x64 : Shape := ⟨2, ![64, 64]⟩
abbrev S64 : Shape := ⟨1, ![64]⟩
abbrev S1x64 : Shape := ⟨2, ![1, 64]⟩
abbrev S1600000x1 : Shape := ⟨2, ![1600000, 1]⟩
abbrev S_ : Shape := ⟨0, ![]⟩
abbrev S1600000x64 : Shape := ⟨2, ![1600000, 64]⟩

abbrev nBuf : Space → Nat
  | .hbm => 29
  | .vmem => 0
  | .smem => 0
  | _ => 0

abbrev bufTy : (tb : Table) → Fin (tcTables nBuf tb) → BufTy
  | .hbm, ⟨0, _⟩ => ⟨S1600000, .i32⟩
  | .hbm, ⟨1, _⟩ => ⟨S1600000, .i32⟩
  | .hbm, ⟨2, _⟩ => ⟨S1600000, .f32⟩
  | .hbm, ⟨3, _⟩ => ⟨S100000x64, .f32⟩
  | .hbm, ⟨4, _⟩ => ⟨S64x64, .f32⟩
  | .hbm, ⟨5, _⟩ => ⟨S64, .f32⟩
  | .hbm, ⟨6, _⟩ => ⟨S100000x64, .f32⟩
  | .hbm, ⟨7, _⟩ => ⟨S1x64, .f32⟩
  | .hbm, ⟨8, _⟩ => ⟨S100000x64, .f32⟩
  | .hbm, ⟨9, _⟩ => ⟨S100000x64, .f32⟩
  | .hbm, ⟨10, _⟩ => ⟨S1600000x1, .f32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1600000x64, .f32⟩
  | .hbm, ⟨20, _⟩ => ⟨S1600000x64, .f32⟩
  | .hbm, ⟨21, _⟩ => ⟨S1600000x64, .f32⟩
  | .hbm, ⟨22, _⟩ => ⟨S_, .f32⟩
  | .hbm, ⟨23, _⟩ => ⟨S100000x64, .f32⟩
  | .hbm, ⟨24, _⟩ => ⟨S1600000x1, .i32⟩
  | .hbm, ⟨25, _⟩ => ⟨S100000x64, .f32⟩
  | .hbm, ⟨26, _⟩ => ⟨S_, .f32⟩
  | .hbm, ⟨27, _⟩ => ⟨S100000x64, .f32⟩
  | .hbm, ⟨28, _⟩ => ⟨S100000x64, .f32⟩
  | _, _ => ⟨S1600000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_call0_cst : Ref sig .tc := ⟨.hbm, 26, rfl⟩
abbrev main_call0_v0 : Ref sig .tc := ⟨.hbm, 27, rfl⟩
abbrev main_v17 : Ref sig .tc := ⟨.hbm, 28, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  dot_S100000x64_S64x64_S100000x64_1_0_0_1_n_n_wf : DotDims.WF S100000x64 S64x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.Spec.lean ====
/-
  The layer both programs compute, as functions of whole arrays over the extended reals.

  * `affine H W b`: the node features after the dense map, entry (r, c) being the sum over k of H[r, k] · W[k, c],
    plus b[c].
  * `aggregate`: the edge aggregation. Column indices below zero are wrapped by the number of nodes, row `cols[e]` of
    the features is gathered for edge e and scaled by `vals[e]`, and the scaled rows are added into the rows
    `rows[e]` of a zero array. The gather and the scatter-add are carried as the operations themselves, over the
    dimension records the programs print (parameters here), so that nothing below has to open them.
  * `relu x`: the entrywise maximum with zero.

  The layer is `relu (aggregate … (affine H W b))`.
-/
import Idealize.ShloMosaic.PureOps.Ideal
import Idealize.ShloMosaic.Lib.ValueIdx

noncomputable section

open scoped BigOperators

namespace Cert.Layer

open Idealize.ShloMosaic Idealize.ShloMosaic.ValueIdx

/-- Node features: one row of 64 per node. -/
abbrev Nodes : Shape := ⟨2, ![100000, 64]⟩
/-- The weight matrix. -/
abbrev Weights : Shape := ⟨2, ![64, 64]⟩
/-- The bias row. -/
abbrev Bias : Shape := ⟨1, ![64]⟩
/-- One word or one value per edge. -/
abbrev Edges : Shape := ⟨1, ![1600000]⟩
/-- The same as a column. -/
abbrev EdgeCol : Shape := ⟨2, ![1600000, 1]⟩
/-- One row of 64 per edge. -/
abbrev Msgs : Shape := ⟨2, ![1600000, 64]⟩
/-- A single value. -/
abbrev Scal : Shape := ⟨0, ![]⟩

/-- The dense map: entry (r, c) is the sum over k of H[r, k] · W[k, c], plus b[c]. -/
def affine (H : FVec Ideal Nodes .f32) (W : FVec Ideal Weights .f32) (b : FVec Ideal Bias .f32) : FVec Ideal Nodes .f32 :=
  fun i => (∑ k : Fin 64, H (ix2 (i 0) k) * W (ix2 k (i 1))) + b (ix1 (i 1))

/-- The entrywise maximum with zero (zero written as the word both programs print for it). -/
def relu (x : FVec Ideal Nodes .f32) : FVec Ideal Nodes .f32 :=
  fun i => max (x i) (Ideal.ofBits .f32 0x00000000#32)

/-- The edge aggregation of node features `hw`: wrap negative column indices, gather row `cols[e]` for each edge,
    scale it by `vals[e]`, and add the scaled rows into rows `rows[e]` of a zero array. -/
def aggregate (g : GatherDims Nodes EdgeCol Msgs) (s : ScatterDims Nodes EdgeCol Msgs)
    (hcol : Edges.BroadcastsInDim EdgeCol (![0] : Fin 1 → Fin EdgeCol.rank))
    (hsplat : Scal.BroadcastsInDim Edges (![] : Fin 0 → Fin Edges.rank))
    (hwide : EdgeCol.BroadcastsInDim Msgs (![0, 1] : Fin 2 → Fin Msgs.rank))
    (hzero : Scal.BroadcastsInDim Nodes (![] : Fin 0 → Fin Nodes.rank))
    (rows cols : IVec Edges 32) (vals : FVec Ideal Edges .f32) (hw : FVec Ideal Nodes .f32) : FVec Ideal Nodes .f32 :=
  Host.scatterAdd s
    (broadcastInDim Nodes ![] hzero (constant (F := Ideal) Scal .f32 0x00000000#32))
    (broadcastInDim EdgeCol ![0] hcol rows)
    (mulf (broadcastInDim Msgs ![0, 1] hwide (broadcastInDim EdgeCol ![0] hcol vals))
      (Host.gather g hw
        (broadcastInDim EdgeCol ![0] hcol
          (select (cmpi .slt cols (broadcastInDim Edges ![] hsplat (constantI Scal 32 0#32)))
            (addi cols (broadcastInDim Edges ![] hsplat (constantI Scal 32 100000#32)))
            cols))))

end Cert.Layer

end
-- ==== Proof.Affine.lean ====
/-
  The first kernel: H·W + b, ten row blocks of 10000 rows each.
  At grid point t the body loads row block t of H, all of W and all of b, multiplies the two (the narrowing of both
  factors to bf16 is the identity over the extended reals, and the product is accumulated into zero), adds b along the
  rows, and stores the block. Entry (p, q) of what it stores is the sum over k of Hblock[p, k] · W[k, q], plus b[q];
  row p of block t of H is row 10000 t + p of H, so the stored block is row block t of `affine H W b`, and the ten
  blocks fill the result array.
-/
import proofs.«134845_j46875273069088_1_alg».proof.Proof.Gen.KernelIdeal.Frame
import proofs.«134845_j46875273069088_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Affine

open Idealize.ShloMosaic Idealize.ShloMosaic.TcCoe Idealize.SL.Sem Idealize.ShloMosaic.ValueIdx
open Idealize.ShloMosaic.Pipeline (Dat)
open Cert.KernelIdeal Cert.KernelIdeal.Gen Cert.Layer

/-! ## The product's operand indices, axis by axis -/

theorem lhs_row (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem lhs_col (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
theorem rhs_row (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
theorem rhs_col (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- The block product into a zero accumulator at entry (p, q): the sum over k of x[p, k] · w[k, q]. -/
theorem product_apply (x : FVec Ideal S10000x64 .bf16) (w : FVec Ideal S64x64 .bf16) (p : Fin 10000) (q : Fin 64) :
    matmul dot_S10000x64_S64x64_S10000x64_1_0_0_1_n_n none x w (constant S10000x64 .f32 0x00000000#32) (ix2 p q)
      = ∑ k : Fin 64, x (ix2 p k) * w (ix2 k q) := by
  simp only [matmul]
  rw [Ideal.matmul_constant_zero_apply, ← Equiv.sum_comp (ValueIdx.contrEquiv1 dot_S10000x64_S64x64_S10000x64_1_0_0_1_n_n 64 rfl rfl).symm]
  refine Finset.sum_congr rfl fun k _ => ?_
  have hk := ValueIdx.contrEquiv1_symm_val dot_S10000x64_S64x64_S10000x64_1_0_0_1_n_n 64 rfl rfl k
  have el : dot_S10000x64_S64x64_S10000x64_1_0_0_1_n_n.lhsIdx (ix2 p q) ((ValueIdx.contrEquiv1 dot_S10000x64_S64x64_S10000x64_1_0_0_1_n_n 64 rfl rfl).symm k) = ix2 p k := funext fun a => Fin.ext (by
    match a with
    | ⟨0, _⟩ => exact lhs_row _ _
    | ⟨1, _⟩ => exact (lhs_col _ _).trans hk)
  have er : dot_S10000x64_S64x64_S10000x64_1_0_0_1_n_n.rhsIdx (ix2 p q) ((ValueIdx.contrEquiv1 dot_S10000x64_S64x64_S10000x64_1_0_0_1_n_n 64 rfl rfl).symm k) = ix2 k q := funext fun a => Fin.ext (by
    match a with
    | ⟨0, _⟩ => exact (rhs_row _ _).trans hk
    | ⟨1, _⟩ => exact rhs_col _ _)
  rw [el, er]

/-- The body's stored value at entry (p, q) of its block. -/
theorem stored_apply (x0 : Vec Ideal S10000x64 .f32) (x1 : Vec Ideal S64x64 .f32) (x2 : Vec Ideal S64 .f32) (p : Fin 10000) (q : Fin 64) :
    k0_pay1 (F := Ideal) x0 x1 x2 (ix2 p q) = (∑ k : Fin 64, x0 (ix2 p k) * x1 (ix2 k q)) + x2 (ix1 q) := by
  unfold k0_pay1
  rw [addf_apply, product_apply, broadcastTo_1b_ab_apply, shapeCast_a_1a_apply]
  rfl

/-! ## From the blocks to the array -/

variable (V : (c : Dev nD) → (b : Ref sig .tc) → Buf (Elt Ideal) ((c : Thread nD τ).loc b))

/-- The three operand arrays as the region finds them, at their literal types. -/
abbrev feats (c : Dev nD) : FVec Ideal S100000x64 .f32 := V c main_arg3
abbrev weights (c : Dev nD) : FVec Ideal S64x64 .f32 := V c main_arg4
abbrev bias (c : Dev nD) : FVec Ideal S64 .f32 := V c main_arg5

theorem origin2 : (![0, 0] : Fin 2 → Nat) = fun _ => 0 := funext fun a => by fin_cases a <;> rfl
theorem origin1 : (![0] : Fin 1 → Nat) = fun _ => 0 := funext fun a => by fin_cases a <;> rfl

/-- At point `t` the windows on H and on the result sit on row block `t`; those on W and b on their one block. -/
theorem blocks_at : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- Entry (p, k) of H's block at point `t` is entry (10000 t + p, k) of H. -/
theorem feats_block (c : Dev nD) (t : Fin cfg0.N) (p : Fin 10000) (k : Fin 64) (i : S100000x64.Idx)
    (hi : (i 0).val = t.val * 10000 + p.val) :
    (iblk0 V c 0 t : Vec Ideal S10000x64 .f32) (ix2 p k) = feats V c (ix2 (i 0) k) := by
  obtain ⟨e00, e01, -⟩ := blocks_at t
  unfold iblk0
  rw [View.read_apply]
  show feats V c _ = feats V c _
  refine congrArg (feats V c) ?_
  funext a
  apply Fin.ext
  match a with
  | ⟨0, _⟩ => show win0_0.index t (0 : Fin 2) * 10000 + 1 * p.val = (i 0).val; omega
  | ⟨1, _⟩ => show win0_0.index t (1 : Fin 2) * 64 + 1 * k.val = k.val; omega

/-- W's block is W. -/
theorem weights_block (c : Dev nD) (t : Fin cfg0.N) (k q : Fin 64) :
    (iblk0 V c 1 t : Vec Ideal S64x64 .f32) (ix2 k q) = weights V c (ix2 k q) := by
  obtain ⟨-, -, e10, e11, -⟩ := blocks_at t
  unfold iblk0
  rw [View.read_apply]
  show weights V c _ = weights V c _
  refine congrArg (weights V c) ?_
  funext a
  apply Fin.ext
  match a with
  | ⟨0, _⟩ => show win0_1.index t (0 : Fin 2) * 64 + 1 * k.val = k.val; omega
  | ⟨1, _⟩ => show win0_1.index t (1 : Fin 2) * 64 + 1 * q.val = q.val; omega

/-- b's block is b. -/
theorem bias_block (c : Dev nD) (t : Fin cfg0.N) (q : Fin 64) :
    (iblk0 V c 2 t : Vec Ideal S64 .f32) (ix1 q) = bias V c (ix1 q) := by
  obtain ⟨-, -, -, -, e20, -⟩ := blocks_at t
  unfold iblk0
  rw [View.read_apply]
  show bias V c _ = bias V c _
  refine congrArg (bias V c) ?_
  funext a
  apply Fin.ext
  match a with
  | ⟨0, _⟩ => show win0_2.index t (0 : Fin 1) * 64 + 1 * q.val = q.val; omega

/-- What point `t` writes back is row block `t` of `affine` of the three operand arrays. -/
theorem flushed_eq (c : Dev nD) (t : Fin cfg0.N) :
    (dat0 V c).flushed 3 t = ((cfg0.win 3).blk t).view.read (Elt Ideal) (affine (feats V c) (weights V c) (bias V c)) := by
  show (cfg0.win 3).cut (grid0.coords t) ((dat0 V c).after 3 t) = _
  rw [after0_3]
  unfold out0_3
  rw [View.canon_unit_zero origin2]
  simp only [View.ld_unit_zero (S := S10000x64) origin2, View.ld_unit_zero (S := S64x64) origin2, View.ld_unit_zero (S := S64) origin1]
  funext j
  show k0_pay1 (F := Ideal) (iblk0 V c 0 t) (iblk0 V c 1 t) (iblk0 V c 2 t) j
    = affine (feats V c) (weights V c) (bias V c) (((cfg0.win 3).blk t).view.emb j)
  obtain ⟨p, q, rfl⟩ : ∃ (p : Fin 10000) (q : Fin 64), j = ix2 p q := ⟨j 0, j 1, eq_ix2 j⟩
  refine (stored_apply _ _ _ p q).trans ?_
  obtain ⟨-, -, -, -, -, e30, e31⟩ := blocks_at t
  have h0 : ((((cfg0.win 3).blk t).view.emb (ix2 p q) : S100000x64.Idx) 0).val = t.val * 10000 + p.val := by
    show win0_3.index t (0 : Fin 2) * 10000 + 1 * p.val = _; omega
  have h1 : (((cfg0.win 3).blk t).view.emb (ix2 p q) : S100000x64.Idx) 1 = q := by
    apply Fin.ext
    show win0_3.index t (1 : Fin 2) * 64 + 1 * q.val = _; omega
  unfold affine
  rw [h1, bias_block V c t q]
  refine congrArg (· + bias V c (ix1 q)) (Finset.sum_congr rfl fun k _ => ?_)
  rw [feats_block V c t p k _ h0, weights_block V c t k q]

/-- An entry of the result array lies in point `t`'s block when each coordinate lies in the block's range. -/
theorem mem_block (t : Fin cfg0.N) (i : S100000x64.Idx) :
    i ∈ ((cfg0.win 3).blk t).view.set ↔ ∀ a : Fin 2, win0_3.index t a * S10000x64.size a ≤ (i a).val ∧ (i a).val < win0_3.index t a * S10000x64.size a + S10000x64.size a := by
  show i ∈ ((View.whole main_v0).slice (win0_3.rect t)).set ↔ _
  rw [View.set_slice_whole, Rect.mem_set_unit]
  exact Iff.rfl

/-- Row r lies in the block of point r / 10000: the ten blocks fill the array. -/
theorem covered (i : S100000x64.Idx) : ∃ t : Fin cfg0.N, (cfg0.win 3).flush t = true ∧ i ∈ ((cfg0.win 3).blk t).view.set := by
  have hi0 : (i 0).val < 100000 := (i 0).isLt
  have hi1 : (i 1).val < 64 := (i 1).isLt
  have hN : cfg0.N = 10 := N_0
  refine ⟨⟨(i 0).val / 10000, by omega⟩, flush0_3 _, ?_⟩
  rw [mem_block]
  obtain ⟨-, -, -, -, -, e30, e31⟩ := blocks_at ⟨(i 0).val / 10000, by omega⟩
  intro a
  match a with
  | ⟨0, _⟩ =>
    show win0_3.index _ (0 : Fin 2) * 10000 ≤ (i 0).val ∧ (i 0).val < win0_3.index _ (0 : Fin 2) * 10000 + 10000
    rw [e30]; dsimp only; omega
  | ⟨1, _⟩ =>
    show win0_3.index _ (1 : Fin 2) * 64 ≤ (i 1).val ∧ (i 1).val < win0_3.index _ (1 : Fin 2) * 64 + 64
    rw [e31]; omega

/-- After the region the result array holds `affine` of the operand arrays as the region found them. -/
theorem final (c : Dev nD) : (dat0 V c).arrAt 3 cfg0.N = affine (feats V c) (weights V c) (bias V c) :=
  (dat0 V c).arrAt_eq_of_cover 3 (affine (feats V c) (weights V c) (bias V c)) (fun t _ => flushed_eq V c t) covered

end Cert.KernelIdeal.Affine

end
-- ==== Proof.Relu.lean ====
/-
  The second kernel: the entrywise maximum with zero, ten row blocks of 10000 rows each.
  Each grid point reads one row block of its operand and writes the same row block of its result, so the block a
  point writes back is that block of `relu` of the operand array, and the ten blocks fill the result array.
-/
import proofs.«134845_j46875273069088_1_alg».proof.Proof.Gen.KernelIdeal.Frame
import proofs.«134845_j46875273069088_1_alg».proof.Proof.Spec
import Idealize.ShloMosaic.Lib.Pipeline.Value
import Idealize.ShloMosaic.Lib.ValueIdx

set_option maxRecDepth 16384

noncomputable section

namespace Cert.KernelIdeal.Relu

open Idealize.ShloMosaic Idealize.ShloMosaic.TcCoe Idealize.SL.Sem Idealize.ShloMosaic.ValueIdx
open Idealize.ShloMosaic.Pipeline (Dat)
open Cert.KernelIdeal Cert.KernelIdeal.Gen Cert.Layer

variable (V : (c : Dev nD) → (b : Ref sig .tc) → Buf (Elt Ideal) ((c : Thread nD τ).loc b))

/-- The operand array as the region finds it, at its literal type. -/
abbrev operand (c : Dev nD) : FVec Ideal S100000x64 .f32 := V c main_v13

theorem origin : (![0, 0] : Fin 2 → Nat) = fun _ => 0 := funext fun a => by fin_cases a <;> rfl

/-- The body's stored value at an entry: the loaded entry against zero. -/
theorem stored_apply (x : Vec Ideal S10000x64 .f32) (j : S10000x64.Idx) :
    k1_pay1 (F := Ideal) x j = max (x j) (Ideal.ofBits .f32 0x00000000#32) := by
  unfold k1_pay1
  rw [shapeCast_self]
  rfl

/-- Both windows sit on row block `t` at point `t`, at column block 0. -/
theorem blocks_at : ∀ t : Fin cfg1.N, win1_0.index t (0 : Fin 2) = t.val ∧ win1_0.index t (1 : Fin 2) = 0
    ∧ win1_1.index t (0 : Fin 2) = t.val ∧ win1_1.index t (1 : Fin 2) = 0 :=
  (by decide +kernel : ∀ t : Fin grid1.N, _)

/-- What point `t` writes back is row block `t` of `relu` of the operand array. -/
theorem flushed_eq (c : Dev nD) (t : Fin cfg1.N) :
    (dat1 V c).flushed 1 t = ((cfg1.win 1).blk t).view.read (Elt Ideal) (relu (operand V c)) := by
  show (cfg1.win 1).cut (grid1.coords t) ((dat1 V c).after 1 t) = _
  rw [after1_1]
  unfold out1_1
  rw [View.canon_unit_zero origin]
  simp only [View.ld_unit_zero (S := S10000x64) origin]
  funext j
  show k1_pay1 (F := Ideal) (iblk1 V c 0 t) j = relu (operand V c) (((cfg1.win 1).blk t).view.emb j)
  refine (stored_apply _ _).trans ?_
  unfold relu iblk1
  show max (operand V c (((cfg1.win 0).blk t).view.emb j)) (Ideal.ofBits .f32 0x00000000#32)
    = max (operand V c (((cfg1.win 1).blk t).view.emb j)) (Ideal.ofBits .f32 0x00000000#32)
  have h : ((cfg1.win 0).blk t).view.emb j = ((cfg1.win 1).blk t).view.emb j := by
    obtain ⟨e0, e1, e2, e3⟩ := blocks_at t
    funext a; apply Fin.ext
    match a with
    | ⟨0, _⟩ => show win1_0.index t (0 : Fin 2) * 10000 + 1 * (j 0).val = win1_1.index t (0 : Fin 2) * 10000 + 1 * (j 0).val; omega
    | ⟨1, _⟩ => show win1_0.index t (1 : Fin 2) * 64 + 1 * (j 1).val = win1_1.index t (1 : Fin 2) * 64 + 1 * (j 1).val; omega
  rw [h]

/-- An entry of the result array lies in point `t`'s block when each coordinate lies in the block's range. -/
theorem mem_block (t : Fin cfg1.N) (i : S100000x64.Idx) :
    i ∈ ((cfg1.win 1).blk t).view.set ↔ ∀ a : Fin 2, win1_1.index t a * S10000x64.size a ≤ (i a).val ∧ (i a).val < win1_1.index t a * S10000x64.size a + S10000x64.size a := by
  show i ∈ ((View.whole main_v14).slice (win1_1.rect t)).set ↔ _
  rw [View.set_slice_whole, Rect.mem_set_unit]
  exact Iff.rfl

/-- Row r lies in the block of point r / 10000: the ten blocks fill the array. -/
theorem covered (i : S100000x64.Idx) : ∃ t : Fin cfg1.N, (cfg1.win 1).flush t = true ∧ i ∈ ((cfg1.win 1).blk t).view.set := by
  have hi0 : (i 0).val < 100000 := (i 0).isLt
  have hi1 : (i 1).val < 64 := (i 1).isLt
  have hN : cfg1.N = 10 := N_1
  refine ⟨⟨(i 0).val / 10000, by omega⟩, flush1_1 _, ?_⟩
  rw [mem_block]
  obtain ⟨-, -, e2, e3⟩ := blocks_at ⟨(i 0).val / 10000, by omega⟩
  intro a
  match a with
  | ⟨0, _⟩ =>
    show win1_1.index _ (0 : Fin 2) * 10000 ≤ (i 0).val ∧ (i 0).val < win1_1.index _ (0 : Fin 2) * 10000 + 10000
    rw [e2]; dsimp only; omega
  | ⟨1, _⟩ =>
    show win1_1.index _ (1 : Fin 2) * 64 ≤ (i 1).val ∧ (i 1).val < win1_1.index _ (1 : Fin 2) * 64 + 64
    rw [e3]; omega

/-- After the region the result array holds `relu` of the operand array as the region found it. -/
theorem final (c : Dev nD) : (dat1 V c).arrAt 1 cfg1.N = relu (operand V c) :=
  (dat1 V c).arrAt_eq_of_cover 1 (relu (operand V c)) (fun t _ => flushed_eq V c t) covered

end Cert.KernelIdeal.Relu

end
-- ==== Proof.KernelValue.lean ====
/-
  The kernel program's result as the layer of its arguments.
  The first region leaves `affine` of H, W, b in its result array; the host stretch between the regions reads that
  array and the three edge arrays, untouched since the launch, and leaves `aggregate` of them in the second region's
  operand; the second region leaves `relu` of its operand in the program's result.
-/
import proofs.«134845_j46875273069088_1_alg».proof.Proof.KernelRun
import proofs.«134845_j46875273069088_1_alg».proof.Proof.Affine
import proofs.«134845_j46875273069088_1_alg».proof.Proof.Relu
import Idealize.ShloMosaic.Lib.StableHlo.Run

set_option maxRecDepth 16384

noncomputable section

namespace Cert.KernelIdeal.Whole

open Idealize.ShloMosaic Idealize.ShloMosaic.TcCoe Idealize.SL.Sem Idealize.ShloMosaic.StableHlo
open Cert.KernelIdeal Cert.KernelIdeal.Gen Cert.Layer

variable (m : (ℓ : Loc nD τ sig) → Buf (Elt Ideal) ℓ) (ρ : Dev nD → PrngReg)

/-- The layer of the launch contents of the six arguments. -/
abbrev layer (c : Dev nD) : FVec Ideal S100000x64 .f32 :=
  relu (aggregate gather_S100000x64_S1600000x1_S1600000x64_1_0_n_n_0_1_164 scatter_S100000x64_S1600000x1_S1600000x64_1_0_0_1
    bcast_S1600000_S1600000x1_0 bcast_S_S1600000 bcast_S1600000x1_S1600000x64_0_1 bcast_S_S100000x64
    (m ((c.tc : Thread nD τ).loc main_arg0)) (m ((c.tc : Thread nD τ).loc main_arg1)) (m ((c.tc : Thread nD τ).loc main_arg2))
    (affine (m ((c.tc : Thread nD τ).loc main_arg3)) (m ((c.tc : Thread nD τ).loc main_arg4)) (m ((c.tc : Thread nD τ).loc main_arg5))))

/-- After the first region its result array holds `affine` of H, W, b as launched. -/
theorem dense (c : Dev nD) : W1 m ρ c (Proc.devRef .tc main_v0)
    = affine (m ((c.tc : Thread nD τ).loc main_arg3)) (m ((c.tc : Thread nD τ).loc main_arg4)) (m ((c.tc : Thread nD τ).loc main_arg5)) :=
  (W1_arr m ρ c 3).trans (Affine.final (V0 m ρ) c)

/-- The first region leaves the three edge arrays as launched. -/
theorem rows_kept (c : Dev nD) : W1 m ρ c (Proc.devRef .tc main_arg0) = m ((c.tc : Thread nD τ).loc main_arg0) :=
  W1_of_ne m ρ c main_arg0 (by decide)
theorem cols_kept (c : Dev nD) : W1 m ρ c (Proc.devRef .tc main_arg1) = m ((c.tc : Thread nD τ).loc main_arg1) :=
  W1_of_ne m ρ c main_arg1 (by decide)
theorem vals_kept (c : Dev nD) : W1 m ρ c (Proc.devRef .tc main_arg2) = m ((c.tc : Thread nD τ).loc main_arg2) :=
  W1_of_ne m ρ c main_arg2 (by decide)

/-- After the host stretch the second region's operand holds `aggregate` of the edge arrays and the dense result. -/
theorem aggregated (c : Dev nD) : W2 m ρ c (Proc.devRef .tc main_v13)
    = aggregate gather_S100000x64_S1600000x1_S1600000x64_1_0_n_n_0_1_164 scatter_S100000x64_S1600000x1_S1600000x64_1_0_0_1
        bcast_S1600000_S1600000x1_0 bcast_S_S1600000 bcast_S1600000x1_S1600000x64_0_1 bcast_S_S100000x64
        (m ((c.tc : Thread nD τ).loc main_arg0)) (m ((c.tc : Thread nD τ).loc main_arg1)) (m ((c.tc : Thread nD τ).loc main_arg2))
        (affine (m ((c.tc : Thread nD τ).loc main_arg3)) (m ((c.tc : Thread nD τ).loc main_arg4)) (m ((c.tc : Thread nD τ).loc main_arg5))) := by
  show StableHlo.after hostOps1 (W1 m ρ c) (Proc.devRef .tc main_v13) = _
  after_results
  rw [dense m ρ c, rows_kept m ρ c, cols_kept m ρ c, vals_kept m ρ c]
  rfl

/-- After the second region the program's result array holds the layer of the arguments. -/
theorem result (c : Dev nD) : W3 m ρ c (Proc.devRef .tc main_v14) = layer m c :=
  (W3_arr m ρ c 1).trans ((Relu.final (V2 m ρ) c).trans (congrArg relu (aggregated m ρ c)))

/-- The run, read: every weakly fair execution ends with the result array at the layer of the arguments and the
    arguments as launched. -/
theorem run : θ_run defs (onTc (τ := τ) (main (F := Ideal))) ⟨m, fun _ => 0, ρ⟩ (fun r => ∀ c : Dev nD,
      r.2.mem ((c.tc : Thread nD τ).loc main_v14) = layer m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (result m ρ c), (h c).2⟩) (run_named m ρ)

end Cert.KernelIdeal.Whole

end
-- ==== Proof.RefValue.lean ====
/-
  The reference, read as the layer: its dense stage is `affine` (the host's product read as the sum over the one
  contracted axis, its bias broadcast along the rows), its last stage is `relu`, and what lies between is `aggregate`
  of the dense stage's result.
-/
import proofs.«134845_j46875273069088_1_alg».proof.Proof.Gen.ReferenceIdeal.Run
import proofs.«134845_j46875273069088_1_alg».proof.Proof.Gen.ReferenceIdeal.Read
import proofs.«134845_j46875273069088_1_alg».proof.Proof.Spec
import Idealize.ShloMosaic.Lib.ValueIdx

noncomputable section

open scoped BigOperators

namespace Cert.ReferenceIdeal.RefValue

open Idealize.ShloMosaic Idealize.ShloMosaic.TcCoe Idealize.SL.Sem Idealize.ShloMosaic.ValueIdx
open Cert.ReferenceIdeal Cert.ReferenceIdeal.Gen Cert.ReferenceIdeal.Read Cert.Layer

/-- The reference's dense stage is `affine`: at entry (r, c) the product is the sum over k of H[r, k] · W[k, c], and
    the broadcast bias is b[c]. -/
theorem dense_eq (H : FVec Ideal S100000x64 .f32) (W : FVec Ideal S64x64 .f32) (b : FVec Ideal S64 .f32) :
    val_main_v3 (F := Ideal) H W b = affine H W b := by
  funext i
  have el : ∀ k : Fin 64, lidx_main_v0 i k = ix2 (i 0) k := fun k => funext fun a => Fin.ext (by
    match a with | ⟨0, _⟩ => rfl | ⟨1, _⟩ => rfl)
  have er : ∀ k : Fin 64, ridx_main_v0 i k = ix2 k (i 1) := fun k => funext fun a => Fin.ext (by
    match a with | ⟨0, _⟩ => rfl | ⟨1, _⟩ => rfl)
  have eb : idx_main_v1 (idx_main_v2 i) = ix1 (i 1) := funext fun a => Fin.ext (by
    match a with | ⟨0, _⟩ => rfl)
  rw [val_main_v3_apply, val_main_v0_apply, val_main_v2_apply, val_main_v1_apply]
  simp only [el, er, eb]
  rfl

/-- The reference's last stage, the maximum with a broadcast zero, is `relu`. -/
theorem last_eq (x : FVec Ideal S100000x64 .f32) : maximumf x (val_main_call0_v0 (F := Ideal)) = relu x := by
  funext i
  rw [maximumf_apply, val_main_call0_v0_apply, val_main_call0_cst_apply]
  rfl

/-- The reference's result is the layer of its arguments. -/
theorem result_eq (a0 a1 : IVec S1600000 32) (a2 : FVec Ideal S1600000 .f32) (H : FVec Ideal S100000x64 .f32)
    (W : FVec Ideal S64x64 .f32) (b : FVec Ideal S64 .f32) :
    val_main_v17 (F := Ideal) a0 a1 a2 H W b
      = relu (aggregate gather_S100000x64_S1600000x1_S1600000x64_1_0_n_n_0_1_164 scatter_S100000x64_S1600000x1_S1600000x64_1_0_0_1
          bcast_S1600000_S1600000x1_0 bcast_S_S1600000 bcast_S1600000x1_S1600000x64_0_1 bcast_S_S100000x64
          a0 a1 a2 (affine H W b)) := by
  unfold val_main_v17
  rw [last_eq]
  refine congrArg relu ?_
  unfold val_main_v16 val_main_v13 val_main_v11
  rw [dense_eq]
  rfl

end Cert.ReferenceIdeal.RefValue

end
-- ==== Proof.lean ====
/-
  A graph-convolution layer, two ways: relu (A · (H W + b)), with A given by its edges (rows, cols, vals).

  The kernel program computes H W + b in a first kernel (row blocks of 10000 nodes; both factors narrowed to bf16,
  which over the extended reals is the identity; the block product accumulated into zero, then the bias added along
  the rows), gathers and scales the rows edge by edge and adds them up by destination row with host operations, and
  takes the maximum with zero in a second kernel (row blocks again). The reference does the dense map with one host
  product and a broadcast bias, the very same edge operations, and a host maximum with zero.

  Over the extended reals both dense maps are the one function `Layer.affine` — entry (r, c) the sum over k of
  H[r, k] · W[k, c], plus b[c] — since a row of the product depends on that row of H only, whatever the blocking
  (Proof/Affine.lean for the kernel's ten blocks, Proof/RefValue.lean for the host's product); both maxima are
  `Layer.relu` (Proof/Relu.lean, Proof/RefValue.lean); and between them both programs apply the same edge operations,
  carried as the one function `Layer.aggregate` and never opened. So both results are
  `relu (aggregate rows cols vals (affine H W b))` (Proof/KernelValue.lean for the kernel program, whose run with the
  result named is Proof/KernelRun.lean). No law of arithmetic beyond this reading is used, so the finiteness of the
  inputs is never opened.

  The three frames are the generated ones (the reference's is its generated run with the result dropped), and the
  idealization rewrote nothing, so that claim is trivial.
-/
import proofs.«134845_j46875273069088_1_alg».proof.Defs
import proofs.«134845_j46875273069088_1_alg».proof.Proof.Gen.Kernel
import proofs.«134845_j46875273069088_1_alg».proof.Proof.Gen.Kernel.Frame
import proofs.«134845_j46875273069088_1_alg».proof.Proof.Gen.KernelIdeal
import proofs.«134845_j46875273069088_1_alg».proof.Proof.Gen.KernelIdeal.Frame
import proofs.«134845_j46875273069088_1_alg».proof.Proof.Gen.ReferenceIdeal
import proofs.«134845_j46875273069088_1_alg».proof.Proof.Gen.ReferenceIdeal.Run
import proofs.«134845_j46875273069088_1_alg».proof.Proof.Gen.ReferenceIdeal.Read
import proofs.«134845_j46875273069088_1_alg».proof.Proof.Gen.Pre_finite_inputs
import proofs.«134845_j46875273069088_1_alg».proof.Proof.KernelValue
import proofs.«134845_j46875273069088_1_alg».proof.Proof.RefValue

noncomputable section

namespace Cert.Proof

open Idealize.ShloMosaic Idealize.ShloMosaic.TcCoe Idealize.SL.Sem

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- The two programs print the same gather and the same scatter-add. -/
theorem gather_same : Cert.ReferenceIdeal.gather_S100000x64_S1600000x1_S1600000x64_1_0_n_n_0_1_164
    = Cert.KernelIdeal.gather_S100000x64_S1600000x1_S1600000x64_1_0_n_n_0_1_164 := rfl
theorem scatter_same : Cert.ReferenceIdeal.scatter_S100000x64_S1600000x1_S1600000x64_1_0_0_1
    = Cert.KernelIdeal.scatter_S100000x64_S1600000x1_S1600000x64_1_0_0_1 := rfl

/-- From memories that agree on the six arguments both programs end with the layer of those arguments. -/
theorem algebraic : Cert.algebraic_KernelIdeal_ReferenceIdeal := by
  intro m ρ m' ρ' _ hagree
  refine ⟨fun c => Cert.KernelIdeal.Whole.layer m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5⟩ := hagree c
  rw [Cert.ReferenceIdeal.Read.val_main_v17_eq, Cert.ReferenceIdeal.RefValue.result_eq, e0, e1, e2, e3, e4, e5,
    gather_same, scatter_same]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
